-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn_part1 {F : FTy → Type} [FloatOps F] (main_v13 : IVec S_ 1) (main_v16 : IVec S4x4096x3 1) : IVec S_ 1 :=
  let main_c_5 : IVec S_ 1 := constantI S_ 1 1#1
  let main_v17 : IVec S_ 1 := (fun x v => Host.reduce IntOp.andi x v reducesTo_S4x4096x3_S_d0_1_2 h_S_) main_v16 main_c_5
  let main_v18 : IVec S_ 1 := andi main_v13 main_v17
  main_v18

def fn {F : FTy → Type} [FloatOps F] (main_arg0 : FVec F S4x4096x3 .f32) (main_arg1 : FVec F S4x4096x3 .f32) (main_arg2 : FVec F S4x4096x3 .f32) (main_arg3 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  let main_v9 : FVec F S4x4096x3 .f32 := Host.absf main_arg2
  let main_cst_2 : FVec F S_ .f32 := constant S_ .f32 0x7F800000#32
  let main_v10 : FVec F S4x4096x3 .f32 := broadcastInDim S4x4096x3 ![] bcast_S_S4x4096x3 main_cst_2
  let main_v11 : IVec S4x4096x3 1 := cmpf .olt main_v9 main_v10
  let main_c_3 : IVec S_ 1 := constantI S_ 1 1#1
  let main_v12 : IVec S_ 1 := (fun x v => Host.reduce IntOp.andi x v reducesTo_S4x4096x3_S_d0_1_2 h_S_) main_v11 main_c_3
  let main_v13 : IVec S_ 1 := andi main_v8 main_v12
  let main_v14 : FVec F S4x4096x3 .f32 := Host.absf main_arg3
  let main_cst_4 : FVec F S_ .f32 := constant S_ .f32 0x7F800000#32
  let main_v15 : FVec F S4x4096x3 .f32 := broadcastInDim S4x4096x3 ![] bcast_S_S4x4096x3 main_cst_4
  let main_v16 : IVec S4x4096x3 1 := cmpf .olt main_v14 main_v15
  fn_part1 (F := F) main_v13 main_v16
-- ==== Kernel.lean ====
abbrev S4x4096x3 : Shape := ⟨3, ![4, 4096, 3]⟩
abbrev S4x4096 : Shape := ⟨2, ![4, 4096]⟩
abbrev S4x128x3 : Shape := ⟨3, ![4, 128, 3]⟩
abbrev S4x128 : Shape := ⟨2, ![4, 128]⟩
abbrev S4x128x1 : Shape := ⟨3, ![4, 128, 1]⟩
abbrev S4x128x4096 : Shape := ⟨3, ![4, 128, 4096]⟩
abbrev S4x1x4096 : Shape := ⟨3, ![4, 1, 4096]⟩
abbrev S_ : Shape := ⟨0, ![]⟩

abbrev nBuf : Space → Nat
  | .hbm => 27
  | .vmem => 20
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S4x4096x3, .f32⟩
  | .hbm, ⟨4, _⟩ => ⟨S4x4096, .f32⟩
  | .hbm, ⟨5, _⟩ => ⟨S4x4096, .f32⟩
  | .hbm, ⟨6, _⟩ => ⟨S4x4096, .f32⟩
  | .hbm, ⟨7, _⟩ => ⟨S4x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S4x128x3, .f32⟩
  | .local _ .vmem, ⟨1, _⟩ => ⟨S4x128x3, .f32⟩
  | .local _ .vmem, ⟨2, _⟩ => ⟨S4x4096x3, .f32⟩
  | .local _ .vmem, ⟨3, _⟩ => ⟨S4x128, .f32⟩
  | .local _ .vmem, ⟨4, _⟩ => ⟨S4x128, .f32⟩
  | .local _ .vmem, ⟨5, _⟩ => ⟨S4x128x3, .f32⟩
  | .local _ .vmem, ⟨6, _⟩ => ⟨S4x128x3, .f32⟩
  | .local _ .vmem, ⟨7, _⟩ => ⟨S4x4096x3, .f32⟩
  | .local _ .vmem, ⟨8, _⟩ => ⟨S4x128, .f32⟩
  | .local _ .vmem, ⟨9, _⟩ => ⟨S4x128, .f32⟩
  | .local _ .vmem, ⟨10, _⟩ => ⟨S4x128x3, .f32⟩
  | .local _ .vmem, ⟨11, _⟩ => ⟨S4x128x3, .f32⟩
  | .local _ .vmem, ⟨12, _⟩ => ⟨S4x4096x3, .f32⟩
  | .local _ .vmem, ⟨13, _⟩ => ⟨S4x128, .f32⟩
  | .local _ .vmem, ⟨14, _⟩ => ⟨S4x128, .f32⟩
  | .local _ .vmem, ⟨15, _⟩ => ⟨S4x128x3, .f32⟩
  | .local _ .vmem, ⟨16, _⟩ => ⟨S4x128x3, .f32⟩
  | .local _ .vmem, ⟨17, _⟩ => ⟨S4x4096x3, .f32⟩
  | .local _ .vmem, ⟨18, _⟩ => ⟨S4x128, .f32⟩
  | .local _ .vmem, ⟨19, _⟩ => ⟨S4x128, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_cst_5 : Ref sig .tc := ⟨.hbm, 21, rfl⟩
abbrev main_v11 : Ref sig .tc := ⟨.hbm, 22, rfl⟩
abbrev main_cst_6 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4096x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4x128x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x4096x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4x128x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x4096x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S4x128x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4x4096x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S4x128x3_S4x128x3_0_0_0 : ∀ a, (![0, 0, 0] : Fin 3 → Nat) a + S4x128x3.size a ≤ S4x128x3.size a
  h_S4x128x3 : 0 < S4x128x3.numel
  inb_S4x4096x3_S4x4096x3_0_0_0 : ∀ a, (![0, 0, 0] : Fin 3 → Nat) a + S4x4096x3.size a ≤ S4x4096x3.size a
  h_S4x4096x3 : 0 < S4x4096x3.numel
  reduces_S4x128x3_S4x128 : S4x128x3.Reduces [2] S4x128
  shapeCasts_S4x128_S4x128x1 : S4x128.ShapeCasts S4x128x1
  reduces_S4x4096x3_S4x4096 : S4x4096x3.Reduces [2] S4x4096
  bitsLt_bf16_f32 : FTy.bits .bf16 < FTy.bits .f32
  shapeCasts_S4x4096_S4x1x4096 : S4x4096.ShapeCasts S4x1x4096
  broadcasts_S4x128x1_S4x128x4096 : S4x128x1.Broadcasts S4x128x4096
  broadcasts_S4x1x4096_S4x128x4096 : S4x1x4096.Broadcasts S4x128x4096
  reduces_S4x128x4096_S4x128 : S4x128x4096.Reduces [2] S4x128
  inb_S4x128_S4x128_0_0 : ∀ a, (![0, 0] : Fin 2 → Nat) a + S4x128.size a ≤ S4x128.size a
  h_S4x128 : 0 < S4x128.numel
  reducesTo_S4x4096_S_d0_1 : S4x4096.ReducesTo [0, 1] S_
  h_S_ : 0 < S_.numel
  dot_S4x128x3_S4x4096x3_S4x128x4096_2_2_1_1_0_0_wf : DotDims.WF S4x128x3 S4x4096x3 S4x128x4096 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x3.size a ≤ S4x4096x3.size a
  hwx0_0 : ∀ i : grid0.Coords, EltTy.bits .f32 = 32 ∨ (Rect.block (s := S4x4096x3) S4x128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4096x3.size a ≤ S4x4096x3.size a
  hwx0_1 : ∀ i : grid0.Coords, EltTy.bits .f32 = 32 ∨ (Rect.block (s := S4x4096x3) S4x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x4096.size a
  hwx0_2 : ∀ i : grid0.Coords, EltTy.bits .f32 = 32 ∨ (Rect.block (s := S4x4096) S4x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x128x3.size a ≤ S4x4096x3.size a
  hwx1_0 : ∀ i : grid1.Coords, EltTy.bits .f32 = 32 ∨ (Rect.block (s := S4x4096x3) S4x128x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x4096x3.size a ≤ S4x4096x3.size a
  hwx1_1 : ∀ i : grid1.Coords, EltTy.bits .f32 = 32 ∨ (Rect.block (s := S4x4096x3) S4x4096x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x128.size a ≤ S4x4096.size a
  hwx1_2 : ∀ i : grid1.Coords, EltTy.bits .f32 = 32 ∨ (Rect.block (s := S4x4096) S4x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x128x3.size a ≤ S4x4096x3.size a
  hwx2_0 : ∀ i : grid2.Coords, EltTy.bits .f32 = 32 ∨ (Rect.block (s := S4x4096x3) S4x128x3.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x4096x3.size a ≤ S4x4096x3.size a
  hwx2_1 : ∀ i : grid2.Coords, EltTy.bits .f32 = 32 ∨ (Rect.block (s := S4x4096x3) S4x4096x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x128.size a ≤ S4x4096.size a
  hwx2_2 : ∀ i : grid2.Coords, EltTy.bits .f32 = 32 ∨ (Rect.block (s := S4x4096) S4x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4x128x3.size a ≤ S4x4096x3.size a
  hwx3_0 : ∀ i : grid3.Coords, EltTy.bits .f32 = 32 ∨ (Rect.block (s := S4x4096x3) S4x128x3.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4x4096x3.size a ≤ S4x4096x3.size a
  hwx3_1 : ∀ i : grid3.Coords, EltTy.bits .f32 = 32 ∨ (Rect.block (s := S4x4096x3) S4x4096x3.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4x128.size a ≤ S4x4096.size a
  hwx3_2 : ∀ i : grid3.Coords, EltTy.bits .f32 = 32 ∨ (Rect.block (s := S4x4096) S4x128.size (cc3_transform_2 i) (hinb3_2 i)).WholeWords (EltTy.packing .f32)

variable [Facts₀]

def dot_S4x128x3_S4x4096x3_S4x128x4096_2_2_1_1_0_0 : DotDims S4x128x3 S4x4096x3 S4x128x4096 where
  lhsContracting := [2]
  rhsContracting := [2]
  lhsNonContracting := [1]
  rhsNonContracting := [1]
  lhsBatch := [0]
  rhsBatch := [0]
  wf := dot_S4x128x3_S4x4096x3_S4x128x4096_2_2_1_1_0_0_wf

abbrev win0_0 : Pipeline.Window sig grid0 :=
  Pipeline.Window.ofSpec (Memref.whole main_arg0) S4x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x4096x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S4x128x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x4096x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S4x128x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S4x4096x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S4x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S4x128x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S4x4096x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S4x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S4x4096x3, .f32⟩
  | .hbm, ⟨4, _⟩ => ⟨S4x4096x3, .f32⟩
  | .hbm, ⟨5, _⟩ => ⟨S_, .f32⟩
  | .hbm, ⟨6, _⟩ => ⟨S4x4096, .f32⟩
  | .hbm, ⟨7, _⟩ => ⟨S4x4096x3, .f32⟩
  | .hbm, ⟨8, _⟩ => ⟨S_, .f32⟩
  | .hbm, ⟨9, _⟩ => ⟨S4x4096, .f32⟩
  | .hbm, ⟨10, _⟩ => ⟨S4x4096x4096, .f32⟩
  | .hbm, ⟨11, _⟩ => ⟨S4x4096x1, .f32⟩
  | .hbm, ⟨12, _⟩ => ⟨S4x1x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4x4096x3, .f32⟩
  | .hbm, ⟨38, _⟩ => ⟨S_, .f32⟩
  | .hbm, ⟨39, _⟩ => ⟨S4x4096, .f32⟩
  | .hbm, ⟨40, _⟩ => ⟨S4x4096x3, .f32⟩
  | .hbm, ⟨41, _⟩ => ⟨S_, .f32⟩
  | .hbm, ⟨42, _⟩ => ⟨S4x4096, .f32⟩
  | .hbm, ⟨43, _⟩ => ⟨S4x4096x4096, .f32⟩
  | .hbm, ⟨44, _⟩ => ⟨S4x4096x1, .f32⟩
  | .hbm, ⟨45, _⟩ => ⟨S4x1x4096, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S_, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S_, .f32⟩
  | .hbm, ⟨54, _⟩ => ⟨S4x4096x4096, .f32⟩
  | .hbm, ⟨55, _⟩ => ⟨S4x4096x4096, .f32⟩
  | .hbm, ⟨56, _⟩ => ⟨S4x4096x4096, .f32⟩
  | .hbm, ⟨57, _⟩ => ⟨S_, .f32⟩
  | .hbm, ⟨58, _⟩ => ⟨S4x4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S4x4096x3, .f32⟩
  | .hbm, ⟨64, _⟩ => ⟨S_, .f32⟩
  | .hbm, ⟨65, _⟩ => ⟨S4x4096, .f32⟩
  | .hbm, ⟨66, _⟩ => ⟨S4x4096x3, .f32⟩
  | .hbm, ⟨67, _⟩ => ⟨S_, .f32⟩
  | .hbm, ⟨68, _⟩ => ⟨S4x4096, .f32⟩
  | .hbm, ⟨69, _⟩ => ⟨S4x4096x4096, .f32⟩
  | .hbm, ⟨70, _⟩ => ⟨S4x4096x1, .f32⟩
  | .hbm, ⟨71, _⟩ => ⟨S4x1x4096, .f32⟩
  | .hbm, ⟨72, _⟩ => ⟨S4x4096x4096, .f32⟩
  | .hbm, ⟨73, _⟩ => ⟨S4x4096x4096, .f32⟩
  | .hbm, ⟨74, _⟩ => ⟨S4x4096x4096, .f32⟩
  | .hbm, ⟨75, _⟩ => ⟨S_, .f32⟩
  | .hbm, ⟨76, _⟩ => ⟨S4x4096x4096, .f32⟩
  | .hbm, ⟨77, _⟩ => ⟨S4x4096x4096, .f32⟩
  | .hbm, ⟨78, _⟩ => ⟨S4x4096x4096, .f32⟩
  | .hbm, ⟨79, _⟩ => ⟨S_, .f32⟩
  | .hbm, ⟨80, _⟩ => ⟨S4x4096x4096, .f32⟩
  | .hbm, ⟨81, _⟩ => ⟨S4x4096x4096, .f32⟩
  | .hbm, ⟨82, _⟩ => ⟨S4x4096x4096, .f32⟩
  | .hbm, ⟨83, _⟩ => ⟨S_, .f32⟩
  | .hbm, ⟨84, _⟩ => ⟨S4x4096, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_cst_8 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev main_cst_10 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_cst_14 : Ref sig .tc := ⟨.hbm, 59, rfl⟩
abbrev main_v40 : Ref sig .tc := ⟨.hbm, 60, rfl⟩
abbrev main_cst_15 : Ref sig .tc := ⟨.hbm, 61, rfl⟩
abbrev main_v41 : Ref sig .tc := ⟨.hbm, 62, rfl⟩
abbrev main_v42 : Ref sig .tc := ⟨.hbm, 63, rfl⟩
abbrev main_cst_16 : Ref sig .tc := ⟨.hbm, 64, rfl⟩
abbrev main_v43 : Ref sig .tc := ⟨.hbm, 65, rfl⟩
abbrev main_v44 : Ref sig .tc := ⟨.hbm, 66, rfl⟩
abbrev main_cst_17 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_18 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_19 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_20 : Ref sig .tc := ⟨.hbm, 83, rfl⟩
abbrev main_v58 : Ref sig .tc := ⟨.hbm, 84, rfl⟩
abbrev main_cst_21 : Ref sig .tc := ⟨.hbm, 85, rfl⟩
abbrev main_v59 : Ref sig .tc := ⟨.hbm, 86, rfl⟩
abbrev main_cst_22 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096_S_d0_1 : S4x4096.ReducesTo [0, 1] S_
  reducesTo_S4x4096x4096_S4x4096_d1 : S4x4096x4096.ReducesTo [1] S4x4096
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.Spec.lean ====
/-
  The mathematics both programs compute, stated once over plain index types.

  An input holds a batch of four clouds of 4096 points with three coordinates each. For two points p and q
  both programs take the distance as √(max(|p|² + |q|² − 2·⟨p, q⟩, 0)), the squared norms and the inner
  product being sums over the three coordinates; for a point p and a cloud Q they take the least such distance
  over the points of Q, folded with `min` from +∞. `nearest A B` is, for every point of every cloud of A, that
  least distance to the cloud of B with the same batch index.

  The one law used between the two programs: the distance is symmetric in its two points (addition and
  multiplication of extended reals commute; nothing is cancelled or distributed, so no finiteness is needed). With it
  the least distance over the FIRST point, the second held fixed, is the least distance from the second point to
  the cloud of the first points.

  Both programs end alike: each of four such arrays is averaged over its 16384 entries (summed from 0 and divided by
  16384) and the four means are added, grouped ((m₀ + m₁) + m₂) + m₃: `total`.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A batch of four clouds of 4096 points of three coordinates. -/
abbrev Pts : Shape := ⟨3, ![4, 4096, 3]⟩
/-- One number per point of the batch. -/
abbrev Rows : Shape := ⟨2, ![4, 4096]⟩

/-- The literals of the computation, kept as their words: 2, 0 and +∞. -/
abbrev two : EReal := Ideal.ofBits .f32 0x40000000#32
abbrev zero : EReal := Ideal.ofBits .f32 0x00000000#32
abbrev inf : EReal := Ideal.ofBits .f32 0x7F800000#32

/-- The distance of two points as both programs compute it: √(max(|p|² + |q|² − 2·⟨p, q⟩, 0)). -/
def pdist (p q : Fin 3 → EReal) : EReal :=
  Ideal.sqrt (max (((∑ d : Fin 3, p d * p d) + (∑ d : Fin 3, q d * q d)) - two * (∑ d : Fin 3, p d * q d)) zero)

/-- The distance is symmetric: the two squared norms change places in a sum, the factors in each product. -/
theorem pdist_comm (p q : Fin 3 → EReal) : pdist p q = pdist q p := by
  unfold pdist
  have h : (∑ d : Fin 3, p d * q d) = ∑ d : Fin 3, q d * p d := Finset.sum_congr rfl fun d _ => mul_comm _ _
  rw [h, add_comm (∑ d : Fin 3, p d * p d) (∑ d : Fin 3, q d * q d)]

/-- The least distance from the point `p` to the 4096 points of the cloud `Q`, folded from +∞. -/
def nearestOf (p : Fin 3 → EReal) (Q : Fin 4096 → Fin 3 → EReal) : EReal :=
  (Finset.univ : Finset (Fin 4096)).fold min inf fun n => pdist p (Q n)

/-- The least distance over the FIRST point, the second fixed, is the least distance from the second point to the
    cloud of the first points. -/
theorem fold_first_eq_nearestOf (q : Fin 3 → EReal) (P : Fin 4096 → Fin 3 → EReal) :
    ((Finset.univ : Finset (Fin 4096)).fold min inf fun m => pdist (P m) q) = nearestOf q P :=
  congrArg (fun f => (Finset.univ : Finset (Fin 4096)).fold min inf f) (funext fun m => pdist_comm (P m) q)

/-- Point `i` of cloud `b` of a batch, as its three coordinates. -/
def pt (A : Pts.Idx → EReal) (b : Fin 4) (i : Fin 4096) : Fin 3 → EReal := fun d => A (ix3 b i d)

/-- For every point of every cloud of `A`: its least distance to the cloud of `B` with the same batch index. -/
def nearest (A B : Pts.Idx → EReal) : Rows.Idx → EReal := fun j =>
  nearestOf (pt A ⟨(j 0).val, (j 0).isLt⟩ ⟨(j 1).val, (j 1).isLt⟩) (pt B ⟨(j 0).val, (j 0).isLt⟩)

theorem nearest_ix2 (A B : Pts.Idx → EReal) (b : Fin 4) (i : Fin 4096) :
    nearest A B (ix2 b i) = nearestOf (pt A b i) (pt B b) := rfl

/-- A single number. -/
abbrev S0 : Shape := ⟨0, ![]⟩

/-- The mean of one number per point over the whole batch, as both programs' host operations take it: the sum over
    both axes from the word 0, divided by the word 16384. The two shape facts are arguments, so that each program
    cites it with its own witnesses. -/
def meanAll (h : Shape.ReducesTo Rows [0, 1] S0) (hu : 0 < S0.numel) (r : FVec Ideal Rows .f32) : FVec Ideal S0 .f32 :=
  Host.divf (F := Ideal) (Host.reduceAdd (F := Ideal) r (constant (F := Ideal) S0 .f32 0x00000000#32) h hu)
    (constant (F := Ideal) S0 .f32 0x46800000#32)

/-- The sum of four such means, grouped ((m₀ + m₁) + m₂) + m₃. -/
def total (h : Shape.ReducesTo Rows [0, 1] S0) (hu : 0 < S0.numel) (r0 r1 r2 r3 : FVec Ideal Rows .f32) : FVec Ideal S0 .f32 :=
  addf (F := Ideal) (addf (F := Ideal) (addf (F := Ideal) (meanAll h hu r0) (meanAll h hu r1)) (meanAll h hu r2)) (meanAll h hu r3)

end Cert.Chamfer

end
-- ==== Proof.LibReduceMin.lean ====
/-
  A general lemma: a float `vector.multi_reduction <minimumf>` over ONE axis, read at the ideal values, is at each
  reduced index the fold of `min` from the accumulator's value over that axis's coordinates, in any order. (The
  library states this for `<maximumf>`; the proof for `<minimumf>` is the same two steps: the reduction is the fold
  over the set of source indices that drop to the reduced index, and that set is the image of the axis's
  coordinates under the injective map that inserts the coordinate.)
-/
import Idealize.ShloMosaic.PureOps.Ideal.Laws

namespace Idealize.ShloMosaic.Ideal

variable {φ : FTy}

/-- A float `vector.multi_reduction <minimumf>` over one axis, read at `Ideal`: the fold of `min` from the
    accumulator's value over that axis's coordinates (a row's minimum). -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.LibKeepdims.lean ====
/-
  General lemmas: the layout steps of a sum kept as a unit axis and spread again, read at an index written by its
  coordinates. An `[a, b]` array cast to `[a, b, 1]` or to `[a, 1, b]` holds, at `(i, j, 0)` resp. `(i, 0, j)`, the
  operand at `(i, j)` (the row-major positions agree: a unit axis contributes a factor 1 and an offset 0); an
  `[a, b, 1]` array broadcast to `[a, b, c]` holds at `(i, j, k)` the operand at `(i, j, 0)`, and an `[a, 1, c]` array
  broadcast to `[a, b, c]` holds there the operand at `(i, 0, k)` (a broadcast reads the operand at the same
  coordinate on every axis but the operand's unit axes, where it reads coordinate 0).
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Idealize.ShloMosaic.Keepdims
-- ==== Proof.Payload.lean ====
/-
  What the kernel body stores, read at an index. One grid point holds a block of 128 points of each of the four
  clouds of its first operand and the whole second operand. The body squares and sums each point's three
  coordinates on both sides, takes the inner products of every block point with every point of the second operand
  by one batched contraction over the coordinate axis, forms |p|² + |q|² − 2·⟨p, q⟩ by spreading the two norm
  arrays over a common [4, 128, 4096] box, clamps at 0, takes the root, and reduces the last axis with `min` from
  +∞. Read at (b, r) this is the least distance from the block's point r of cloud b to the 4096 points of cloud b
  of the second operand: `Cert.Chamfer.nearestOf`. The narrowing of the contraction's operands to sixteen bits is
  the identity on the ideal values.
-/
import proofs.«175858_j66022237274638_1_alg».proof.Proof.Gen.KernelIdeal.Skeleton
import proofs.«175858_j66022237274638_1_alg».proof.Proof.Spec
import proofs.«175858_j66022237274638_1_alg».proof.Proof.LibReduceMin
import proofs.«175858_j66022237274638_1_alg».proof.Proof.LibKeepdims
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen Cert.Chamfer
open Idealize.ShloMosaic Idealize.ShloMosaic.ValueIdx Idealize.ShloMosaic.Keepdims

/-! ## The squared norms -/

/-- The sum over the coordinate axis of a block's squares, at (b, r): the squared norm of the block's point. -/
theorem sqnorm_blk (v : FVec Ideal S4x128x3 .f32) (b : Fin 4) (r : Fin 128) :
    multiReduction (F := Ideal) .add [2] S4x128 (mulf v v) 0x00000000#32 reduces_S4x128x3_S4x128 (.inl rfl) rfl (ix2 b r)
      = ∑ d : Fin 3, v (ix3 b r d) * v (ix3 b r d) := by
  refine (Ideal.multiReduction_add_single (mulf v v) 0x00000000#32 reduces_S4x128x3_S4x128 (.inl rfl) rfl (ix2 b r)).trans ?_
  refine Finset.sum_congr rfl fun d _ => ?_
  have e : reduces_S4x128x3_S4x128.lift (ix2 b r) d = ix3 b r d := funext fun a => Fin.ext (by
    match a with
    | ⟨0, _⟩ => rfl
    | ⟨1, _⟩ => rfl
    | ⟨2, _⟩ => rfl)
  rw [e]; rfl

/-- The same over a whole operand, at (b, n). -/
theorem sqnorm_pts (v : FVec Ideal S4x4096x3 .f32) (b : Fin 4) (n : Fin 4096) :
    multiReduction (F := Ideal) .add [2] S4x4096 (mulf v v) 0x00000000#32 reduces_S4x4096x3_S4x4096 (.inl rfl) rfl (ix2 b n)
      = ∑ d : Fin 3, v (ix3 b n d) * v (ix3 b n d) := by
  refine (Ideal.multiReduction_add_single (mulf v v) 0x00000000#32 reduces_S4x4096x3_S4x4096 (.inl rfl) rfl (ix2 b n)).trans ?_
  refine Finset.sum_congr rfl fun d _ => ?_
  have e : reduces_S4x4096x3_S4x4096.lift (ix2 b n) d = ix3 b n d := funext fun a => Fin.ext (by
    match a with
    | ⟨0, _⟩ => rfl
    | ⟨1, _⟩ => rfl
    | ⟨2, _⟩ => rfl)
  rw [e]; rfl

/-- The block's norms kept as a unit last axis and spread over the 4096 columns: at (b, r, n) the squared norm of
    the block's point r. -/
theorem norm_rows (v : FVec Ideal S4x128x3 .f32) (b : Fin 4) (r : Fin 128) (n : Fin 4096) :
    broadcastTo S4x128x4096 (shapeCast S4x128x1 (multiReduction (F := Ideal) .add [2] S4x128 (mulf v v) 0x00000000#32 reduces_S4x128x3_S4x128 (.inl rfl) rfl)
        shapeCasts_S4x128_S4x128x1) broadcasts_S4x128x1_S4x128x4096 (ix3 b r n)
      = ∑ d : Fin 3, v (ix3 b r d) * v (ix3 b r d) :=
  (broadcastTo_ab1_abc_apply _ broadcasts_S4x128x1_S4x128x4096 b r n).trans
    ((shapeCast_ab_ab1_apply _ shapeCasts_S4x128_S4x128x1 b r (0 : Fin 1)).trans (sqnorm_blk v b r))

/-- The second operand's norms given a unit middle axis and spread over the 128 rows: at (b, r, n) the squared norm
    of its point n. -/
theorem norm_cols (v : FVec Ideal S4x4096x3 .f32) (b : Fin 4) (r : Fin 128) (n : Fin 4096) :
    broadcastTo S4x128x4096 (shapeCast S4x1x4096 (multiReduction (F := Ideal) .add [2] S4x4096 (mulf v v) 0x00000000#32 reduces_S4x4096x3_S4x4096 (.inl rfl) rfl)
        shapeCasts_S4x4096_S4x1x4096) broadcasts_S4x1x4096_S4x128x4096 (ix3 b r n)
      = ∑ d : Fin 3, v (ix3 b n d) * v (ix3 b n d) :=
  (broadcastTo_a1c_abc_apply _ broadcasts_S4x1x4096_S4x128x4096 b r n).trans
    ((shapeCast_ab_a1b_apply _ shapeCasts_S4x4096_S4x1x4096 b (0 : Fin 1) n).trans (sqnorm_pts v b n))

/-! ## The batched contraction over the coordinate axis -/

/-- The left operand's index at an output index and a contraction index: the batch and the row of the output. -/
theorem lhs_0 (i : S4x128x4096.Idx) (q : dot_S4x128x3_S4x4096x3_S4x128x4096_2_2_1_1_0_0.contr.Idx) :
    (dot_S4x128x3_S4x4096x3_S4x128x4096_2_2_1_1_0_0.lhsIdx i q 0).val = (i 0).val := by
  unfold DotDims.lhsIdx
  rw [dif_pos (show (0 : Fin S4x128x3.rank) ∈ dot_S4x128x3_S4x4096x3_S4x128x4096_2_2_1_1_0_0.lhsBatch by decide)]
  rfl
theorem lhs_1 (i : S4x128x4096.Idx) (q : dot_S4x128x3_S4x4096x3_S4x128x4096_2_2_1_1_0_0.contr.Idx) :
    (dot_S4x128x3_S4x4096x3_S4x128x4096_2_2_1_1_0_0.lhsIdx i q 1).val = (i 1).val := by
  unfold DotDims.lhsIdx
  rw [dif_neg (show ¬(1 : Fin S4x128x3.rank) ∈ dot_S4x128x3_S4x4096x3_S4x128x4096_2_2_1_1_0_0.lhsBatch by decide), dif_pos (show (1 : Fin S4x128x3.rank) ∈ dot_S4x128x3_S4x4096x3_S4x128x4096_2_2_1_1_0_0.lhsNonContracting by decide)]
  rfl
theorem lhs_2 (i : S4x128x4096.Idx) (q : dot_S4x128x3_S4x4096x3_S4x128x4096_2_2_1_1_0_0.contr.Idx) :
    (dot_S4x128x3_S4x4096x3_S4x128x4096_2_2_1_1_0_0.lhsIdx i q 2).val = (q ⟨0, by decide⟩).val :=
  dot_S4x128x3_S4x4096x3_S4x128x4096_2_2_1_1_0_0.lhsIdx_val_of_single rfl i q
/-- The right operand's: the batch and the COLUMN of the output (its points are indexed by the output's last axis). -/
theorem rhs_0 (i : S4x128x4096.Idx) (q : dot_S4x128x3_S4x4096x3_S4x128x4096_2_2_1_1_0_0.contr.Idx) :
    (dot_S4x128x3_S4x4096x3_S4x128x4096_2_2_1_1_0_0.rhsIdx i q 0).val = (i 0).val := by
  unfold DotDims.rhsIdx
  rw [dif_pos (show (0 : Fin S4x4096x3.rank) ∈ dot_S4x128x3_S4x4096x3_S4x128x4096_2_2_1_1_0_0.rhsBatch by decide)]
  rfl
theorem rhs_1 (i : S4x128x4096.Idx) (q : dot_S4x128x3_S4x4096x3_S4x128x4096_2_2_1_1_0_0.contr.Idx) :
    (dot_S4x128x3_S4x4096x3_S4x128x4096_2_2_1_1_0_0.rhsIdx i q 1).val = (i 2).val := by
  unfold DotDims.rhsIdx
  rw [dif_neg (show ¬(1 : Fin S4x4096x3.rank) ∈ dot_S4x128x3_S4x4096x3_S4x128x4096_2_2_1_1_0_0.rhsBatch by decide), dif_pos (show (1 : Fin S4x4096x3.rank) ∈ dot_S4x128x3_S4x4096x3_S4x128x4096_2_2_1_1_0_0.rhsNonContracting by decide)]
  rfl
theorem rhs_2 (i : S4x128x4096.Idx) (q : dot_S4x128x3_S4x4096x3_S4x128x4096_2_2_1_1_0_0.contr.Idx) :
    (dot_S4x128x3_S4x4096x3_S4x128x4096_2_2_1_1_0_0.rhsIdx i q 2).val = (q ⟨0, by decide⟩).val :=
  dot_S4x128x3_S4x4096x3_S4x128x4096_2_2_1_1_0_0.rhsIdx_val_of_single rfl i q

/-- The contraction into the zero accumulator, at (b, r, n): the inner product of the left operand's point (b, r)
    with the right operand's point (b, n). -/
theorem inner_apply (l : FVec Ideal S4x128x3 .bf16) (rr : FVec Ideal S4x4096x3 .bf16) (b : Fin 4) (r : Fin 128) (n : Fin 4096) :
    matmul (F := Ideal) dot_S4x128x3_S4x4096x3_S4x128x4096_2_2_1_1_0_0 none l rr (constant (F := Ideal) S4x128x4096 .f32 0x00000000#32) (ix3 b r n)
      = ∑ k : Fin 3, l (ix3 b r k) * rr (ix3 b n k) := by
  simp only [matmul]
  rw [Ideal.matmul_constant_zero_apply, ← Equiv.sum_comp (ValueIdx.contrEquiv1 dot_S4x128x3_S4x4096x3_S4x128x4096_2_2_1_1_0_0 3 rfl rfl).symm]
  refine Finset.sum_congr rfl fun k _ => ?_
  have hk := ValueIdx.contrEquiv1_symm_val dot_S4x128x3_S4x4096x3_S4x128x4096_2_2_1_1_0_0 3 rfl rfl k
  have el : dot_S4x128x3_S4x4096x3_S4x128x4096_2_2_1_1_0_0.lhsIdx (ix3 b r n) ((ValueIdx.contrEquiv1 dot_S4x128x3_S4x4096x3_S4x128x4096_2_2_1_1_0_0 3 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : dot_S4x128x3_S4x4096x3_S4x128x4096_2_2_1_1_0_0.rhsIdx (ix3 b r n) ((ValueIdx.contrEquiv1 dot_S4x128x3_S4x4096x3_S4x128x4096_2_2_1_1_0_0 3 rfl rfl).symm k) = ix3 b n k := funext fun a => Fin.ext (by
    match a with
    | ⟨0, _⟩ => exact rhs_0 _ _
    | ⟨1, _⟩ => exact rhs_1 _ _
    | ⟨2, _⟩ => exact (rhs_2 _ _).trans hk)
  rw [el, er]

/-! ## The payload -/

/-- The reduced index (b, r) with the column n put back is (b, r, n). -/
theorem lift_cols (b : Fin 4) (r : Fin 128) (n : Fin 4096) : reduces_S4x128x4096_S4x128.lift (ix2 b r) n = ix3 b r n :=
  funext fun a => Fin.ext (by
    match a with
    | ⟨0, _⟩ => rfl
    | ⟨1, _⟩ => rfl
    | ⟨2, _⟩ => rfl)

/-- A `min` reduction of a [4, 128, 4096] box over its last axis from +∞, at (b, r): the fold of `min` over the 4096
    columns of row (b, r). -/
theorem min_cols (w : FVec Ideal S4x128x4096 .f32) (b : Fin 4) (r : Fin 128) :
    multiReduction (F := Ideal) .minimumf [2] S4x128 w 0x7F800000#32 reduces_S4x128x4096_S4x128 (.inl rfl) rfl (ix2 b r)
      = (Finset.univ : Finset (Fin 4096)).fold min inf fun n => w (ix3 b r n) := by
  refine (Ideal.multiReduction_minimumf_single w 0x7F800000#32 reduces_S4x128x4096_S4x128 (.inl rfl) rfl (ix2 b r)).trans ?_
  refine congrArg (fun f => (Finset.univ : Finset (Fin 4096)).fold min inf f) (funext fun n => ?_)
  rw [Function.comp_apply, lift_cols b r n]

/-- The box of distances the body reduces: at (b, r, n) the distance of the block's point (b, r) and the second
    operand's point (b, n). -/
def distBox (x0 : Vec Ideal S4x128x3 .f32) (x1 : Vec Ideal S4x4096x3 .f32) : FVec Ideal S4x128x4096 .f32 :=
  sqrt (maximumf (subf
      (addf
        (broadcastTo S4x128x4096 (shapeCast S4x128x1 (multiReduction (F := Ideal) .add [2] S4x128 (mulf x0 x0) 0x00000000#32 reduces_S4x128x3_S4x128 (.inl rfl) rfl)
          shapeCasts_S4x128_S4x128x1) broadcasts_S4x128x1_S4x128x4096)
        (broadcastTo S4x128x4096 (shapeCast S4x1x4096 (multiReduction (F := Ideal) .add [2] S4x4096 (mulf x1 x1) 0x00000000#32 reduces_S4x4096x3_S4x4096 (.inl rfl) rfl)
          shapeCasts_S4x4096_S4x1x4096) broadcasts_S4x1x4096_S4x128x4096))
      (mulf (broadcast S4x128x4096 (Scalar.ofBits (F := Ideal) .f32 0x40000000#32))
        (matmul (F := Ideal) dot_S4x128x3_S4x4096x3_S4x128x4096_2_2_1_1_0_0 none (truncf .bf16 x0 bitsLt_bf16_f32) (truncf .bf16 x1 bitsLt_bf16_f32)
          (constant (F := Ideal) S4x128x4096 .f32 0x00000000#32))))
    (broadcast S4x128x4096 (Scalar.ofBits (F := Ideal) .f32 0x00000000#32)))

/-- The body's stored value is the `min` reduction of that box. -/
theorem pay_eq (x0 : Vec Ideal S4x128x3 .f32) (x1 : Vec Ideal S4x4096x3 .f32) :
    k0_pay1 (F := Ideal) x0 x1
      = multiReduction (F := Ideal) .minimumf [2] S4x128 (distBox x0 x1) 0x7F800000#32 reduces_S4x128x4096_S4x128 (.inl rfl) rfl := rfl

/-- The box at (b, r, n) is the distance of the two points. -/
theorem distBox_apply (x0 : Vec Ideal S4x128x3 .f32) (x1 : Vec Ideal S4x4096x3 .f32) (b : Fin 4) (r : Fin 128) (n : Fin 4096) :
    distBox x0 x1 (ix3 b r n) = pdist (fun d => x0 (ix3 b r d)) (fun d => x1 (ix3 b n d)) := by
  show Ideal.sqrt (max ((broadcastTo S4x128x4096 (shapeCast S4x128x1 (multiReduction (F := Ideal) .add [2] S4x128 (mulf x0 x0) 0x00000000#32 reduces_S4x128x3_S4x128 (.inl rfl) rfl)
          shapeCasts_S4x128_S4x128x1) broadcasts_S4x128x1_S4x128x4096 (ix3 b r n)
        + broadcastTo S4x128x4096 (shapeCast S4x1x4096 (multiReduction (F := Ideal) .add [2] S4x4096 (mulf x1 x1) 0x00000000#32 reduces_S4x4096x3_S4x4096 (.inl rfl) rfl)
          shapeCasts_S4x4096_S4x1x4096) broadcasts_S4x1x4096_S4x128x4096 (ix3 b r n))
      - two * matmul (F := Ideal) dot_S4x128x3_S4x4096x3_S4x128x4096_2_2_1_1_0_0 none (truncf .bf16 x0 bitsLt_bf16_f32) (truncf .bf16 x1 bitsLt_bf16_f32)
          (constant (F := Ideal) S4x128x4096 .f32 0x00000000#32) (ix3 b r n)) zero) = _
  rw [norm_rows x0 b r n, norm_cols x1 b r n, inner_apply _ _ b r n]
  rfl

/-- What the body stores at (b, r): the least distance from the block's point r of cloud b to the points of cloud b
    of the second operand. -/
theorem pay_apply (x0 : Vec Ideal S4x128x3 .f32) (x1 : Vec Ideal S4x4096x3 .f32) (b : Fin 4) (r : Fin 128) :
    k0_pay1 (F := Ideal) x0 x1 (ix2 b r) = nearestOf (fun d => x0 (ix3 b r d)) (fun n d => x1 (ix3 b n d)) := by
  rw [pay_eq]
  refine (min_cols (distBox x0 x1) b r).trans ?_
  unfold nearestOf
  exact congrArg (fun f => (Finset.univ : Finset (Fin 4096)).fold min inf f) (funext fun n => distBox_apply x0 x1 b r n)

/-- The four launches run one body: their payloads are one function. -/
theorem k0_pay1_eq : @k0_pay1 Ideal _ = @k0_pay1 Ideal _ := rfl
theorem k1_pay1_eq : @k1_pay1 Ideal _ = @k0_pay1 Ideal _ := rfl
theorem k2_pay1_eq : @k2_pay1 Ideal _ = @k0_pay1 Ideal _ := rfl
theorem k3_pay1_eq : @k3_pay1 Ideal _ = @k0_pay1 Ideal _ := rfl

/-- What the body stores from a block of rows 128·T … 128·T + 127 of `A` and the whole of `B`, at the block's (b, r), is
    `nearest A B` at the array's (b, 128·T + r). Stated over variables of the literal types and for any of the four
    launches' payload functions; a launch instantiates it at a grid point's blocks. -/
theorem block_value (pay : Vec Ideal S4x128x3 .f32 → Vec Ideal S4x4096x3 .f32 → FVec Ideal S4x128 .f32)
    (hpay : pay = k0_pay1 (F := Ideal)) (A B : Pts.Idx → EReal)
    (x0 : Vec Ideal S4x128x3 .f32) (x1 : Vec Ideal S4x4096x3 .f32) (T : Nat)
    (h0 : ∀ (y : S4x128x3.Idx) (k : S4x4096x3.Idx), (k 0).val = (y 0).val → (k 1).val = 128 * T + (y 1).val → (k 2).val = (y 2).val → x0 y = A k)
    (h1 : ∀ y : S4x4096x3.Idx, x1 y = B y)
    (y : S4x128.Idx) (i : Rows.Idx) (hi0 : (i 0).val = (y 0).val) (hi1 : (i 1).val = 128 * T + (y 1).val) :
    pay x0 x1 y = nearest A B i := by
  subst hpay
  obtain ⟨b, r, rfl⟩ : ∃ (b : Fin 4) (r : Fin 128), y = ix2 b r := ⟨y 0, y 1, eq_ix2 y⟩
  obtain ⟨b', i', rfl⟩ : ∃ (b' : Fin 4) (i' : Fin 4096), i = ix2 b' i' := ⟨i 0, i 1, eq_ix2 i⟩
  obtain rfl : b' = b := Fin.ext hi0
  rw [pay_apply, nearest_ix2]
  have e0 : (fun d => x0 (ix3 b' r d)) = pt A b' i' := funext fun d => h0 (ix3 b' r d) (ix3 b' i' d) rfl hi1 rfl
  have e1 : (fun n d => x1 (ix3 b' n d)) = pt B b' := funext fun n => funext fun d => h1 (ix3 b' n d)
  rw [e0, e1]

end Cert.KernelIdeal.Hand

end
-- ==== Proof.Region0.lean ====
/-
  Launch 0 of the row-minimum body: the array it leaves. Its grid has 32 points; point t stages rows 128·t … 128·t + 127
  of each of the four clouds of its first operand, the WHOLE second operand, and writes back rows 128·t … 128·t + 127 of
  the four result rows. So what point t writes is block t of ONE function of the two operand arrays — for every point of
  the first operand its least distance to the second operand's cloud of the same batch index — and the 32 blocks tile
  the result array: after the launch the array is that function, whatever it held before.
-/
import proofs.«175858_j66022237274638_1_alg».proof.Proof.Gen.KernelIdeal.Frame
import proofs.«175858_j66022237274638_1_alg».proof.Proof.Payload
import proofs.«175858_j66022237274638_1_alg».proof.Proof.Spec
import Idealize.ShloMosaic.Lib.Pipeline.Value
import Idealize.ShloMosaic.Lib.ValueIdx

set_option maxRecDepth 16384

noncomputable section

namespace Cert.KernelIdeal.Hand.R0

open Cert.KernelIdeal Cert.KernelIdeal.Gen Cert.KernelIdeal.Hand Cert.Chamfer
open Idealize.ShloMosaic Idealize.ShloMosaic.TcCoe Idealize.ShloMosaic.ValueIdx Idealize.SL.Sem
open Idealize.ShloMosaic.Pipeline (Dat)

-- the TensorCore's buffer contents when the launch is entered
variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided once over the grid: the first operand's and the result's blocks move with the
    point along the row axis, the second operand's block is always the first (and only) one. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val :=
  (by decide +kernel : ∀ t : Fin grid0.N, _)

/-- The first operand's block at point t holds rows 128·t … 128·t + 127 of each cloud. -/
theorem blk_rows (c : Dev nD) (t : Fin cfg0.N) (y : S4x128x3.Idx) (k : S4x4096x3.Idx)
    (hk0 : (k 0).val = (y 0).val) (hk1 : (k 1).val = 128 * t.val + (y 1).val) (hk2 : (k 2).val = (y 2).val) :
    (iblk0 V c 0 t : Vec Ideal S4x128x3 .f32) y = (V c main_arg0 : S4x4096x3.Idx → Elt Ideal .f32) k := by
  obtain ⟨e0, e1, e2, -, -, -, -, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 3) * 4 + 1 * (y 0).val = (k 0).val; rw [e0, hk0]; omega
  | ⟨1, _⟩ => show win0_0.index t (1 : Fin 3) * 128 + 1 * (y 1).val = (k 1).val; rw [e1, hk1]; omega
  | ⟨2, _⟩ => show win0_0.index t (2 : Fin 3) * 3 + 1 * (y 2).val = (k 2).val; rw [e2, hk2]; omega

/-- The second operand's block at every point is the whole array. -/
theorem blk_whole (c : Dev nD) (t : Fin cfg0.N) (y : S4x4096x3.Idx) :
    (iblk0 V c 1 t : Vec Ideal S4x4096x3 .f32) y = (V c main_arg1 : S4x4096x3.Idx → Elt Ideal .f32) y := by
  obtain ⟨-, -, -, e0, e1, e2, -, -⟩ := idx_facts t
  unfold iblk0
  rw [View.read_apply]
  show V c main_arg1 _ = V c main_arg1 _
  refine congrArg (V c main_arg1) (funext fun a => Fin.ext ?_)
  match a with
  | ⟨0, _⟩ => show win0_1.index t (0 : Fin 3) * 4 + 1 * (y 0).val = (y 0).val; rw [e0]; omega
  | ⟨1, _⟩ => show win0_1.index t (1 : Fin 3) * 4096 + 1 * (y 1).val = (y 1).val; rw [e1]; omega
  | ⟨2, _⟩ => show win0_1.index t (2 : Fin 3) * 3 + 1 * (y 2).val = (y 2).val; rw [e2]; omega

/-- WHAT POINT t WRITES BACK is block t of `nearest` of the two operand arrays as the launch finds them. -/
theorem flushed_eq (c : Dev nD) (t : Fin cfg0.N) :
    (dat0 V c).flushed 2 t = ((cfg0.win 2).blk t).view.read (Elt Ideal) (nearest (V c main_arg0) (V c main_arg1)) := by
  show (cfg0.win 2).cut (grid0.coords t) ((dat0 V c).after 2 t) = _
  rw [after0_2]
  unfold out0_2
  rw [View.canon_unit_zero hz2]
  simp only [View.ld_unit_zero (S := S4x128x3) hz3, View.ld_unit_zero (S := S4x4096x3) hz3]
  obtain ⟨-, -, -, -, -, -, e0, e1⟩ := idx_facts t
  funext j
  show k0_pay1 (F := Ideal) (iblk0 V c 0 t) (iblk0 V c 1 t) j = nearest (V c main_arg0) (V c main_arg1) (((cfg0.win 2).blk t).view.emb j)
  refine block_value (k0_pay1 (F := Ideal)) k0_pay1_eq (V c main_arg0) (V c main_arg1) (iblk0 V c 0 t) (iblk0 V c 1 t) t.val (blk_rows V c t) (blk_whole V c t) j
    (((cfg0.win 2).blk t).view.emb j) ?_ ?_
  · show win0_2.index t (0 : Fin 2) * 4 + 1 * (j 0).val = (j 0).val; rw [e0]; omega
  · show win0_2.index t (1 : Fin 2) * 128 + 1 * (j 1).val = 128 * t.val + (j 1).val; rw [e1]; omega

/-- An index of the result array is in point t's block iff each coordinate is in the block's range on its axis. -/
theorem mem_blk (t : Fin cfg0.N) (i : S4x4096.Idx) :
    i ∈ ((cfg0.win 2).blk t).view.set ↔ ∀ a : Fin 2, win0_2.index t a * S4x128.size a ≤ (i a).val ∧ (i a).val < win0_2.index t a * S4x128.size a + S4x128.size a := by
  show i ∈ ((View.whole main_v0).slice (win0_2.rect t)).set ↔ _
  rw [View.set_slice_whole, Rect.mem_set_unit]
  exact Iff.rfl

/-- Every index of the result array lies in some point's block: row r of a cloud in the block of point r / 128. -/
theorem cover (i : S4x4096.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hN : grid0.N = 32 := N_0
  have hlt : (i 1).val / 128 < cfg0.N := by show (i 1).val / 128 < grid0.N; rw [hN]; omega
  obtain ⟨-, -, -, -, -, -, e0, e1⟩ := idx_facts ⟨(i 1).val / 128, hlt⟩
  refine ⟨⟨(i 1).val / 128, hlt⟩, flush0_2 _, ?_⟩
  rw [mem_blk]
  intro a
  match a with
  | ⟨0, _⟩ =>
    show win0_2.index ⟨(i 1).val / 128, hlt⟩ (0 : Fin 2) * 4 ≤ (i 0).val ∧ (i 0).val < win0_2.index ⟨(i 1).val / 128, hlt⟩ (0 : Fin 2) * 4 + 4
    rw [e0]; omega
  | ⟨1, _⟩ =>
    show win0_2.index ⟨(i 1).val / 128, hlt⟩ (1 : Fin 2) * 128 ≤ (i 1).val ∧ (i 1).val < win0_2.index ⟨(i 1).val / 128, hlt⟩ (1 : Fin 2) * 128 + 128
    rw [e1]; show (i 1).val / 128 * 128 ≤ (i 1).val ∧ (i 1).val < (i 1).val / 128 * 128 + 128; omega

/-- THE ARRAY after the launch: for every point of the first operand its least distance to the second operand's cloud. -/
theorem final (c : Dev nD) : (dat0 V c).arrAt 2 cfg0.N = nearest (V c main_arg0) (V c main_arg1) :=
  (dat0 V c).arrAt_eq_of_cover 2 (nearest (V c main_arg0) (V c main_arg1)) (fun t _ => flushed_eq V c t) cover

end Cert.KernelIdeal.Hand.R0

end
-- ==== Proof.Region1.lean ====
/-
  Launch 1 of the row-minimum body: the array it leaves. Its grid has 32 points; point t stages rows 128·t … 128·t + 127
  of each of the four clouds of its first operand, the WHOLE second operand, and writes back rows 128·t … 128·t + 127 of
  the four result rows. So what point t writes is block t of ONE function of the two operand arrays — for every point of
  the first operand its least distance to the second operand's cloud of the same batch index — and the 32 blocks tile
  the result array: after the launch the array is that function, whatever it held before.
-/
import proofs.«175858_j66022237274638_1_alg».proof.Proof.Gen.KernelIdeal.Frame
import proofs.«175858_j66022237274638_1_alg».proof.Proof.Payload
import proofs.«175858_j66022237274638_1_alg».proof.Proof.Spec
import Idealize.ShloMosaic.Lib.Pipeline.Value
import Idealize.ShloMosaic.Lib.ValueIdx

set_option maxRecDepth 16384

noncomputable section

namespace Cert.KernelIdeal.Hand.R1

open Cert.KernelIdeal Cert.KernelIdeal.Gen Cert.KernelIdeal.Hand Cert.Chamfer
open Idealize.ShloMosaic Idealize.ShloMosaic.TcCoe Idealize.ShloMosaic.ValueIdx Idealize.SL.Sem
open Idealize.ShloMosaic.Pipeline (Dat)

-- the TensorCore's buffer contents when the launch is entered
variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided once over the grid: the first operand's and the result's blocks move with the
    point along the row axis, the second operand's block is always the first (and only) one. -/
theorem idx_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = t.val :=
  (by decide +kernel : ∀ t : Fin grid1.N, _)

/-- The first operand's block at point t holds rows 128·t … 128·t + 127 of each cloud. -/
theorem blk_rows (c : Dev nD) (t : Fin cfg1.N) (y : S4x128x3.Idx) (k : S4x4096x3.Idx)
    (hk0 : (k 0).val = (y 0).val) (hk1 : (k 1).val = 128 * t.val + (y 1).val) (hk2 : (k 2).val = (y 2).val) :
    (iblk1 V c 0 t : Vec Ideal S4x128x3 .f32) y = (V c main_arg1 : S4x4096x3.Idx → Elt Ideal .f32) k := by
  obtain ⟨e0, e1, e2, -, -, -, -, -⟩ := idx_facts t
  unfold iblk1
  rw [View.read_apply]
  show V c main_arg1 _ = V c main_arg1 _
  refine congrArg (V c main_arg1) (funext fun a => Fin.ext ?_)
  match a with
  | ⟨0, _⟩ => show win1_0.index t (0 : Fin 3) * 4 + 1 * (y 0).val = (k 0).val; rw [e0, hk0]; omega
  | ⟨1, _⟩ => show win1_0.index t (1 : Fin 3) * 128 + 1 * (y 1).val = (k 1).val; rw [e1, hk1]; omega
  | ⟨2, _⟩ => show win1_0.index t (2 : Fin 3) * 3 + 1 * (y 2).val = (k 2).val; rw [e2, hk2]; omega

/-- The second operand's block at every point is the whole array. -/
theorem blk_whole (c : Dev nD) (t : Fin cfg1.N) (y : S4x4096x3.Idx) :
    (iblk1 V c 1 t : Vec Ideal S4x4096x3 .f32) y = (V c main_arg0 : S4x4096x3.Idx → Elt Ideal .f32) y := by
  obtain ⟨-, -, -, e0, e1, e2, -, -⟩ := idx_facts t
  unfold iblk1
  rw [View.read_apply]
  show V c main_arg0 _ = V c main_arg0 _
  refine congrArg (V c main_arg0) (funext fun a => Fin.ext ?_)
  match a with
  | ⟨0, _⟩ => show win1_1.index t (0 : Fin 3) * 4 + 1 * (y 0).val = (y 0).val; rw [e0]; omega
  | ⟨1, _⟩ => show win1_1.index t (1 : Fin 3) * 4096 + 1 * (y 1).val = (y 1).val; rw [e1]; omega
  | ⟨2, _⟩ => show win1_1.index t (2 : Fin 3) * 3 + 1 * (y 2).val = (y 2).val; rw [e2]; omega

/-- WHAT POINT t WRITES BACK is block t of `nearest` of the two operand arrays as the launch finds them. -/
theorem flushed_eq (c : Dev nD) (t : Fin cfg1.N) :
    (dat1 V c).flushed 2 t = ((cfg1.win 2).blk t).view.read (Elt Ideal) (nearest (V c main_arg1) (V c main_arg0)) := by
  show (cfg1.win 2).cut (grid1.coords t) ((dat1 V c).after 2 t) = _
  rw [after1_2]
  unfold out1_2
  rw [View.canon_unit_zero hz2]
  simp only [View.ld_unit_zero (S := S4x128x3) hz3, View.ld_unit_zero (S := S4x4096x3) hz3]
  obtain ⟨-, -, -, -, -, -, e0, e1⟩ := idx_facts t
  funext j
  show k1_pay1 (F := Ideal) (iblk1 V c 0 t) (iblk1 V c 1 t) j = nearest (V c main_arg1) (V c main_arg0) (((cfg1.win 2).blk t).view.emb j)
  refine block_value (k1_pay1 (F := Ideal)) k1_pay1_eq (V c main_arg1) (V c main_arg0) (iblk1 V c 0 t) (iblk1 V c 1 t) t.val (blk_rows V c t) (blk_whole V c t) j
    (((cfg1.win 2).blk t).view.emb j) ?_ ?_
  · show win1_2.index t (0 : Fin 2) * 4 + 1 * (j 0).val = (j 0).val; rw [e0]; omega
  · show win1_2.index t (1 : Fin 2) * 128 + 1 * (j 1).val = 128 * t.val + (j 1).val; rw [e1]; omega

/-- An index of the result array is in point t's block iff each coordinate is in the block's range on its axis. -/
theorem mem_blk (t : Fin cfg1.N) (i : S4x4096.Idx) :
    i ∈ ((cfg1.win 2).blk t).view.set ↔ ∀ a : Fin 2, win1_2.index t a * S4x128.size a ≤ (i a).val ∧ (i a).val < win1_2.index t a * S4x128.size a + S4x128.size a := by
  show i ∈ ((View.whole main_v1).slice (win1_2.rect t)).set ↔ _
  rw [View.set_slice_whole, Rect.mem_set_unit]
  exact Iff.rfl

/-- Every index of the result array lies in some point's block: row r of a cloud in the block of point r / 128. -/
theorem cover (i : S4x4096.Idx) : ∃ t : Fin cfg1.N, (cfg1.win 2).flush t = true ∧ i ∈ ((cfg1.win 2).blk t).view.set := by
  have hi0 : (i 0).val < 4 := (i 0).isLt
  have hi1 : (i 1).val < 4096 := (i 1).isLt
  have hN : grid1.N = 32 := N_1
  have hlt : (i 1).val / 128 < cfg1.N := by show (i 1).val / 128 < grid1.N; rw [hN]; omega
  obtain ⟨-, -, -, -, -, -, e0, e1⟩ := idx_facts ⟨(i 1).val / 128, hlt⟩
  refine ⟨⟨(i 1).val / 128, hlt⟩, flush1_2 _, ?_⟩
  rw [mem_blk]
  intro a
  match a with
  | ⟨0, _⟩ =>
    show win1_2.index ⟨(i 1).val / 128, hlt⟩ (0 : Fin 2) * 4 ≤ (i 0).val ∧ (i 0).val < win1_2.index ⟨(i 1).val / 128, hlt⟩ (0 : Fin 2) * 4 + 4
    rw [e0]; omega
  | ⟨1, _⟩ =>
    show win1_2.index ⟨(i 1).val / 128, hlt⟩ (1 : Fin 2) * 128 ≤ (i 1).val ∧ (i 1).val < win1_2.index ⟨(i 1).val / 128, hlt⟩ (1 : Fin 2) * 128 + 128
    rw [e1]; show (i 1).val / 128 * 128 ≤ (i 1).val ∧ (i 1).val < (i 1).val / 128 * 128 + 128; omega

/-- THE ARRAY after the launch: for every point of the first operand its least distance to the second operand's cloud. -/
theorem final (c : Dev nD) : (dat1 V c).arrAt 2 cfg1.N = nearest (V c main_arg1) (V c main_arg0) :=
  (dat1 V c).arrAt_eq_of_cover 2 (nearest (V c main_arg1) (V c main_arg0)) (fun t _ => flushed_eq V c t) cover

end Cert.KernelIdeal.Hand.R1

end
-- ==== Proof.Region2.lean ====
/-
  Launch 2 of the row-minimum body: the array it leaves. Its grid has 32 points; point t stages rows 128·t … 128·t + 127
  of each of the four clouds of its first operand, the WHOLE second operand, and writes back rows 128·t … 128·t + 127 of
  the four result rows. So what point t writes is block t of ONE function of the two operand arrays — for every point of
  the first operand its least distance to the second operand's cloud of the same batch index — and the 32 blocks tile
  the result array: after the launch the array is that function, whatever it held before.
-/
import proofs.«175858_j66022237274638_1_alg».proof.Proof.Gen.KernelIdeal.Frame
import proofs.«175858_j66022237274638_1_alg».proof.Proof.Payload
import proofs.«175858_j66022237274638_1_alg».proof.Proof.Spec
import Idealize.ShloMosaic.Lib.Pipeline.Value
import Idealize.ShloMosaic.Lib.ValueIdx

set_option maxRecDepth 16384

noncomputable section

namespace Cert.KernelIdeal.Hand.R2

open Cert.KernelIdeal Cert.KernelIdeal.Gen Cert.KernelIdeal.Hand Cert.Chamfer
open Idealize.ShloMosaic Idealize.ShloMosaic.TcCoe Idealize.ShloMosaic.ValueIdx Idealize.SL.Sem
open Idealize.ShloMosaic.Pipeline (Dat)

-- the TensorCore's buffer contents when the launch is entered
variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided once over the grid: the first operand's and the result's blocks move with the
    point along the row axis, the second operand's block is always the first (and only) one. -/
theorem idx_facts : ∀ t : Fin cfg2.N,
    win2_0.index t (0 : Fin 3) = 0 ∧ win2_0.index t (1 : Fin 3) = t.val ∧ win2_0.index t (2 : Fin 3) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = t.val :=
  (by decide +kernel : ∀ t : Fin grid2.N, _)

/-- The first operand's block at point t holds rows 128·t … 128·t + 127 of each cloud. -/
theorem blk_rows (c : Dev nD) (t : Fin cfg2.N) (y : S4x128x3.Idx) (k : S4x4096x3.Idx)
    (hk0 : (k 0).val = (y 0).val) (hk1 : (k 1).val = 128 * t.val + (y 1).val) (hk2 : (k 2).val = (y 2).val) :
    (iblk2 V c 0 t : Vec Ideal S4x128x3 .f32) y = (V c main_arg0 : S4x4096x3.Idx → Elt Ideal .f32) k := by
  obtain ⟨e0, e1, e2, -, -, -, -, -⟩ := idx_facts t
  unfold iblk2
  rw [View.read_apply]
  show V c main_arg0 _ = V c main_arg0 _
  refine congrArg (V c main_arg0) (funext fun a => Fin.ext ?_)
  match a with
  | ⟨0, _⟩ => show win2_0.index t (0 : Fin 3) * 4 + 1 * (y 0).val = (k 0).val; rw [e0, hk0]; omega
  | ⟨1, _⟩ => show win2_0.index t (1 : Fin 3) * 128 + 1 * (y 1).val = (k 1).val; rw [e1, hk1]; omega
  | ⟨2, _⟩ => show win2_0.index t (2 : Fin 3) * 3 + 1 * (y 2).val = (k 2).val; rw [e2, hk2]; omega

/-- The second operand's block at every point is the whole array. -/
theorem blk_whole (c : Dev nD) (t : Fin cfg2.N) (y : S4x4096x3.Idx) :
    (iblk2 V c 1 t : Vec Ideal S4x4096x3 .f32) y = (V c main_arg2 : S4x4096x3.Idx → Elt Ideal .f32) y := by
  obtain ⟨-, -, -, e0, e1, e2, -, -⟩ := idx_facts t
  unfold iblk2
  rw [View.read_apply]
  show V c main_arg2 _ = V c main_arg2 _
  refine congrArg (V c main_arg2) (funext fun a => Fin.ext ?_)
  match a with
  | ⟨0, _⟩ => show win2_1.index t (0 : Fin 3) * 4 + 1 * (y 0).val = (y 0).val; rw [e0]; omega
  | ⟨1, _⟩ => show win2_1.index t (1 : Fin 3) * 4096 + 1 * (y 1).val = (y 1).val; rw [e1]; omega
  | ⟨2, _⟩ => show win2_1.index t (2 : Fin 3) * 3 + 1 * (y 2).val = (y 2).val; rw [e2]; omega

/-- WHAT POINT t WRITES BACK is block t of `nearest` of the two operand arrays as the launch finds them. -/
theorem flushed_eq (c : Dev nD) (t : Fin cfg2.N) :
    (dat2 V c).flushed 2 t = ((cfg2.win 2).blk t).view.read (Elt Ideal) (nearest (V c main_arg0) (V c main_arg2)) := by
  show (cfg2.win 2).cut (grid2.coords t) ((dat2 V c).after 2 t) = _
  rw [after2_2]
  unfold out2_2
  rw [View.canon_unit_zero hz2]
  simp only [View.ld_unit_zero (S := S4x128x3) hz3, View.ld_unit_zero (S := S4x4096x3) hz3]
  obtain ⟨-, -, -, -, -, -, e0, e1⟩ := idx_facts t
  funext j
  show k2_pay1 (F := Ideal) (iblk2 V c 0 t) (iblk2 V c 1 t) j = nearest (V c main_arg0) (V c main_arg2) (((cfg2.win 2).blk t).view.emb j)
  refine block_value (k2_pay1 (F := Ideal)) k2_pay1_eq (V c main_arg0) (V c main_arg2) (iblk2 V c 0 t) (iblk2 V c 1 t) t.val (blk_rows V c t) (blk_whole V c t) j
    (((cfg2.win 2).blk t).view.emb j) ?_ ?_
  · show win2_2.index t (0 : Fin 2) * 4 + 1 * (j 0).val = (j 0).val; rw [e0]; omega
  · show win2_2.index t (1 : Fin 2) * 128 + 1 * (j 1).val = 128 * t.val + (j 1).val; rw [e1]; omega

/-- An index of the result array is in point t's block iff each coordinate is in the block's range on its axis. -/
theorem mem_blk (t : Fin cfg2.N) (i : S4x4096.Idx) :
    i ∈ ((cfg2.win 2).blk t).view.set ↔ ∀ a : Fin 2, win2_2.index t a * S4x128.size a ≤ (i a).val ∧ (i a).val < win2_2.index t a * S4x128.size a + S4x128.size a := by
  show i ∈ ((View.whole main_v2).slice (win2_2.rect t)).set ↔ _
  rw [View.set_slice_whole, Rect.mem_set_unit]
  exact Iff.rfl

/-- Every index of the result array lies in some point's block: row r of a cloud in the block of point r / 128. -/
theorem cover (i : S4x4096.Idx) : ∃ t : Fin cfg2.N, (cfg2.win 2).flush t = true ∧ i ∈ ((cfg2.win 2).blk t).view.set := by
  have hi0 : (i 0).val < 4 := (i 0).isLt
  have hi1 : (i 1).val < 4096 := (i 1).isLt
  have hN : grid2.N = 32 := N_2
  have hlt : (i 1).val / 128 < cfg2.N := by show (i 1).val / 128 < grid2.N; rw [hN]; omega
  obtain ⟨-, -, -, -, -, -, e0, e1⟩ := idx_facts ⟨(i 1).val / 128, hlt⟩
  refine ⟨⟨(i 1).val / 128, hlt⟩, flush2_2 _, ?_⟩
  rw [mem_blk]
  intro a
  match a with
  | ⟨0, _⟩ =>
    show win2_2.index ⟨(i 1).val / 128, hlt⟩ (0 : Fin 2) * 4 ≤ (i 0).val ∧ (i 0).val < win2_2.index ⟨(i 1).val / 128, hlt⟩ (0 : Fin 2) * 4 + 4
    rw [e0]; omega
  | ⟨1, _⟩ =>
    show win2_2.index ⟨(i 1).val / 128, hlt⟩ (1 : Fin 2) * 128 ≤ (i 1).val ∧ (i 1).val < win2_2.index ⟨(i 1).val / 128, hlt⟩ (1 : Fin 2) * 128 + 128
    rw [e1]; show (i 1).val / 128 * 128 ≤ (i 1).val ∧ (i 1).val < (i 1).val / 128 * 128 + 128; omega

/-- THE ARRAY after the launch: for every point of the first operand its least distance to the second operand's cloud. -/
theorem final (c : Dev nD) : (dat2 V c).arrAt 2 cfg2.N = nearest (V c main_arg0) (V c main_arg2) :=
  (dat2 V c).arrAt_eq_of_cover 2 (nearest (V c main_arg0) (V c main_arg2)) (fun t _ => flushed_eq V c t) cover

end Cert.KernelIdeal.Hand.R2

end
-- ==== Proof.Region3.lean ====
/-
  Launch 3 of the row-minimum body: the array it leaves. Its grid has 32 points; point t stages rows 128·t … 128·t + 127
  of each of the four clouds of its first operand, the WHOLE second operand, and writes back rows 128·t … 128·t + 127 of
  the four result rows. So what point t writes is block t of ONE function of the two operand arrays — for every point of
  the first operand its least distance to the second operand's cloud of the same batch index — and the 32 blocks tile
  the result array: after the launch the array is that function, whatever it held before.
-/
import proofs.«175858_j66022237274638_1_alg».proof.Proof.Gen.KernelIdeal.Frame
import proofs.«175858_j66022237274638_1_alg».proof.Proof.Payload
import proofs.«175858_j66022237274638_1_alg».proof.Proof.Spec
import Idealize.ShloMosaic.Lib.Pipeline.Value
import Idealize.ShloMosaic.Lib.ValueIdx

set_option maxRecDepth 16384

noncomputable section

namespace Cert.KernelIdeal.Hand.R3

open Cert.KernelIdeal Cert.KernelIdeal.Gen Cert.KernelIdeal.Hand Cert.Chamfer
open Idealize.ShloMosaic Idealize.ShloMosaic.TcCoe Idealize.ShloMosaic.ValueIdx Idealize.SL.Sem
open Idealize.ShloMosaic.Pipeline (Dat)

-- the TensorCore's buffer contents when the launch is entered
variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided once over the grid: the first operand's and the result's blocks move with the
    point along the row axis, the second operand's block is always the first (and only) one. -/
theorem idx_facts : ∀ t : Fin cfg3.N,
    win3_0.index t (0 : Fin 3) = 0 ∧ win3_0.index t (1 : Fin 3) = t.val ∧ win3_0.index t (2 : Fin 3) = 0
    ∧ win3_1.index t (0 : Fin 3) = 0 ∧ win3_1.index t (1 : Fin 3) = 0 ∧ win3_1.index t (2 : Fin 3) = 0
    ∧ win3_2.index t (0 : Fin 2) = 0 ∧ win3_2.index t (1 : Fin 2) = t.val :=
  (by decide +kernel : ∀ t : Fin grid3.N, _)

/-- The first operand's block at point t holds rows 128·t … 128·t + 127 of each cloud. -/
theorem blk_rows (c : Dev nD) (t : Fin cfg3.N) (y : S4x128x3.Idx) (k : S4x4096x3.Idx)
    (hk0 : (k 0).val = (y 0).val) (hk1 : (k 1).val = 128 * t.val + (y 1).val) (hk2 : (k 2).val = (y 2).val) :
    (iblk3 V c 0 t : Vec Ideal S4x128x3 .f32) y = (V c main_arg1 : S4x4096x3.Idx → Elt Ideal .f32) k := by
  obtain ⟨e0, e1, e2, -, -, -, -, -⟩ := idx_facts t
  unfold iblk3
  rw [View.read_apply]
  show V c main_arg1 _ = V c main_arg1 _
  refine congrArg (V c main_arg1) (funext fun a => Fin.ext ?_)
  match a with
  | ⟨0, _⟩ => show win3_0.index t (0 : Fin 3) * 4 + 1 * (y 0).val = (k 0).val; rw [e0, hk0]; omega
  | ⟨1, _⟩ => show win3_0.index t (1 : Fin 3) * 128 + 1 * (y 1).val = (k 1).val; rw [e1, hk1]; omega
  | ⟨2, _⟩ => show win3_0.index t (2 : Fin 3) * 3 + 1 * (y 2).val = (k 2).val; rw [e2, hk2]; omega

/-- The second operand's block at every point is the whole array. -/
theorem blk_whole (c : Dev nD) (t : Fin cfg3.N) (y : S4x4096x3.Idx) :
    (iblk3 V c 1 t : Vec Ideal S4x4096x3 .f32) y = (V c main_arg3 : S4x4096x3.Idx → Elt Ideal .f32) y := by
  obtain ⟨-, -, -, e0, e1, e2, -, -⟩ := idx_facts t
  unfold iblk3
  rw [View.read_apply]
  show V c main_arg3 _ = V c main_arg3 _
  refine congrArg (V c main_arg3) (funext fun a => Fin.ext ?_)
  match a with
  | ⟨0, _⟩ => show win3_1.index t (0 : Fin 3) * 4 + 1 * (y 0).val = (y 0).val; rw [e0]; omega
  | ⟨1, _⟩ => show win3_1.index t (1 : Fin 3) * 4096 + 1 * (y 1).val = (y 1).val; rw [e1]; omega
  | ⟨2, _⟩ => show win3_1.index t (2 : Fin 3) * 3 + 1 * (y 2).val = (y 2).val; rw [e2]; omega

/-- WHAT POINT t WRITES BACK is block t of `nearest` of the two operand arrays as the launch finds them. -/
theorem flushed_eq (c : Dev nD) (t : Fin cfg3.N) :
    (dat3 V c).flushed 2 t = ((cfg3.win 2).blk t).view.read (Elt Ideal) (nearest (V c main_arg1) (V c main_arg3)) := by
  show (cfg3.win 2).cut (grid3.coords t) ((dat3 V c).after 2 t) = _
  rw [after3_2]
  unfold out3_2
  rw [View.canon_unit_zero hz2]
  simp only [View.ld_unit_zero (S := S4x128x3) hz3, View.ld_unit_zero (S := S4x4096x3) hz3]
  obtain ⟨-, -, -, -, -, -, e0, e1⟩ := idx_facts t
  funext j
  show k3_pay1 (F := Ideal) (iblk3 V c 0 t) (iblk3 V c 1 t) j = nearest (V c main_arg1) (V c main_arg3) (((cfg3.win 2).blk t).view.emb j)
  refine block_value (k3_pay1 (F := Ideal)) k3_pay1_eq (V c main_arg1) (V c main_arg3) (iblk3 V c 0 t) (iblk3 V c 1 t) t.val (blk_rows V c t) (blk_whole V c t) j
    (((cfg3.win 2).blk t).view.emb j) ?_ ?_
  · show win3_2.index t (0 : Fin 2) * 4 + 1 * (j 0).val = (j 0).val; rw [e0]; omega
  · show win3_2.index t (1 : Fin 2) * 128 + 1 * (j 1).val = 128 * t.val + (j 1).val; rw [e1]; omega

/-- An index of the result array is in point t's block iff each coordinate is in the block's range on its axis. -/
theorem mem_blk (t : Fin cfg3.N) (i : S4x4096.Idx) :
    i ∈ ((cfg3.win 2).blk t).view.set ↔ ∀ a : Fin 2, win3_2.index t a * S4x128.size a ≤ (i a).val ∧ (i a).val < win3_2.index t a * S4x128.size a + S4x128.size a := by
  show i ∈ ((View.whole main_v3).slice (win3_2.rect t)).set ↔ _
  rw [View.set_slice_whole, Rect.mem_set_unit]
  exact Iff.rfl

/-- Every index of the result array lies in some point's block: row r of a cloud in the block of point r / 128. -/
theorem cover (i : S4x4096.Idx) : ∃ t : Fin cfg3.N, (cfg3.win 2).flush t = true ∧ i ∈ ((cfg3.win 2).blk t).view.set := by
  have hi0 : (i 0).val < 4 := (i 0).isLt
  have hi1 : (i 1).val < 4096 := (i 1).isLt
  have hN : grid3.N = 32 := N_3
  have hlt : (i 1).val / 128 < cfg3.N := by show (i 1).val / 128 < grid3.N; rw [hN]; omega
  obtain ⟨-, -, -, -, -, -, e0, e1⟩ := idx_facts ⟨(i 1).val / 128, hlt⟩
  refine ⟨⟨(i 1).val / 128, hlt⟩, flush3_2 _, ?_⟩
  rw [mem_blk]
  intro a
  match a with
  | ⟨0, _⟩ =>
    show win3_2.index ⟨(i 1).val / 128, hlt⟩ (0 : Fin 2) * 4 ≤ (i 0).val ∧ (i 0).val < win3_2.index ⟨(i 1).val / 128, hlt⟩ (0 : Fin 2) * 4 + 4
    rw [e0]; omega
  | ⟨1, _⟩ =>
    show win3_2.index ⟨(i 1).val / 128, hlt⟩ (1 : Fin 2) * 128 ≤ (i 1).val ∧ (i 1).val < win3_2.index ⟨(i 1).val / 128, hlt⟩ (1 : Fin 2) * 128 + 128
    rw [e1]; show (i 1).val / 128 * 128 ≤ (i 1).val ∧ (i 1).val < (i 1).val / 128 * 128 + 128; omega

/-- THE ARRAY after the launch: for every point of the first operand its least distance to the second operand's cloud. -/
theorem final (c : Dev nD) : (dat3 V c).arrAt 2 cfg3.N = nearest (V c main_arg1) (V c main_arg3) :=
  (dat3 V c).arrAt_eq_of_cover 2 (nearest (V c main_arg1) (V c main_arg3)) (fun t _ => flushed_eq V c t) cover

end Cert.KernelIdeal.Hand.R3

end
-- ==== Proof.KernelValue.lean ====
/-
  The idealized kernel's result as a function of its four inputs. @main runs the row-minimum body four times — on
  (input 0, input 1), (input 1, input 0), (input 0, input 2), (input 1, input 3) — and then averages and adds the
  four result arrays on the host. No launch and no host operation writes an input, so every launch finds its two
  operands as they were at the start; each launch's result array is `nearest` of its operands (the launch's own
  module) and is written by no later launch; the host operations after the last launch are `total` of the four.
-/
import proofs.«175858_j66022237274638_1_alg».proof.Proof.Gen.KernelIdeal.Frame
import proofs.«175858_j66022237274638_1_alg».proof.Proof.KernelRun
import proofs.«175858_j66022237274638_1_alg».proof.Proof.Region0
import proofs.«175858_j66022237274638_1_alg».proof.Proof.Region1
import proofs.«175858_j66022237274638_1_alg».proof.Proof.Region2
import proofs.«175858_j66022237274638_1_alg».proof.Proof.Region3
import proofs.«175858_j66022237274638_1_alg».proof.Proof.Spec
import Idealize.ShloMosaic.Lib.StableHlo.Run

set_option maxRecDepth 16384

noncomputable section

namespace Cert.KernelIdeal.Hand

open Cert.KernelIdeal Cert.KernelIdeal.Gen Cert.Chamfer
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg)

/-! ## Each launch finds its operands as launched -/

theorem entry0_a (c : Dev nD) : V0 m ρ c main_arg0 = m ((c : Thread nD τ).loc main_arg0) := rfl
theorem entry0_b (c : Dev nD) : V0 m ρ c main_arg1 = m ((c : Thread nD τ).loc main_arg1) := rfl
/-- Launch 0 read both of launch 1's operands through input windows: an input window's array is left as entered. -/
theorem entry1_a (c : Dev nD) : V1 m ρ c main_arg1 = m ((c : Thread nD τ).loc main_arg1) :=
  (W1_arr m ρ c 1).trans (((dat0 (V0 m ρ) c).arrAt_in 1 rfl _).trans (A_eq0 (V0 m ρ) c 1))
theorem entry1_b (c : Dev nD) : V1 m ρ c main_arg0 = m ((c : Thread nD τ).loc main_arg0) :=
  (W1_arr m ρ c 0).trans (((dat0 (V0 m ρ) c).arrAt_in 0 rfl _).trans (A_eq0 (V0 m ρ) c 0))
theorem entry2_a (c : Dev nD) : V2 m ρ c main_arg0 = m ((c : Thread nD τ).loc main_arg0) :=
  ((W2_arr m ρ c 1).trans (((dat1 (V1 m ρ) c).arrAt_in 1 rfl _).trans (A_eq1 (V1 m ρ) c 1))).trans (entry1_b m ρ c)
/-- Neither earlier launch touches input 2. -/
theorem entry2_b (c : Dev nD) : V2 m ρ c main_arg2 = m ((c : Thread nD τ).loc main_arg2) :=
  (W2_of_ne m ρ c main_arg2 (by decide)).trans (W1_of_ne m ρ c main_arg2 (by decide))
theorem entry3_a (c : Dev nD) : V3 m ρ c main_arg1 = m ((c : Thread nD τ).loc main_arg1) :=
  (W3_of_ne m ρ c main_arg1 (by decide)).trans
    (((W2_arr m ρ c 0).trans (((dat1 (V1 m ρ) c).arrAt_in 0 rfl _).trans (A_eq1 (V1 m ρ) c 0))).trans (entry1_a m ρ c))
theorem entry3_b (c : Dev nD) : V3 m ρ c main_arg3 = m ((c : Thread nD τ).loc main_arg3) :=
  (W3_of_ne m ρ c main_arg3 (by decide)).trans ((W2_of_ne m ρ c main_arg3 (by decide)).trans (W1_of_ne m ρ c main_arg3 (by decide)))

/-! ## The four result arrays after the last launch -/

theorem res0 (c : Dev nD) : W4 m ρ c (Proc.devRef .tc main_v0)
    = nearest (m ((c : Thread nD τ).loc main_arg0)) (m ((c : Thread nD τ).loc main_arg1)) :=
  calc W4 m ρ c (Proc.devRef .tc main_v0)
    _ = W3 m ρ c (Proc.devRef .tc main_v0) := W4_of_ne m ρ c main_v0 (by decide)
    _ = W2 m ρ c (Proc.devRef .tc main_v0) := W3_of_ne m ρ c main_v0 (by decide)
    _ = W1 m ρ c (Proc.devRef .tc main_v0) := W2_of_ne m ρ c main_v0 (by decide)
    _ = (dat0 (V0 m ρ) c).arrAt 2 cfg0.N := W1_arr m ρ c 2
    _ = nearest (V0 m ρ c main_arg0) (V0 m ρ c main_arg1) := R0.final (V0 m ρ) c
    _ = _ := by rw [entry0_a, entry0_b]

theorem res1 (c : Dev nD) : W4 m ρ c (Proc.devRef .tc main_v1)
    = nearest (m ((c : Thread nD τ).loc main_arg1)) (m ((c : Thread nD τ).loc main_arg0)) :=
  calc W4 m ρ c (Proc.devRef .tc main_v1)
    _ = W3 m ρ c (Proc.devRef .tc main_v1) := W4_of_ne m ρ c main_v1 (by decide)
    _ = W2 m ρ c (Proc.devRef .tc main_v1) := W3_of_ne m ρ c main_v1 (by decide)
    _ = (dat1 (V1 m ρ) c).arrAt 2 cfg1.N := W2_arr m ρ c 2
    _ = nearest (V1 m ρ c main_arg1) (V1 m ρ c main_arg0) := R1.final (V1 m ρ) c
    _ = _ := by rw [entry1_a, entry1_b]

theorem res2 (c : Dev nD) : W4 m ρ c (Proc.devRef .tc main_v2)
    = nearest (m ((c : Thread nD τ).loc main_arg0)) (m ((c : Thread nD τ).loc main_arg2)) :=
  calc W4 m ρ c (Proc.devRef .tc main_v2)
    _ = W3 m ρ c (Proc.devRef .tc main_v2) := W4_of_ne m ρ c main_v2 (by decide)
    _ = (dat2 (V2 m ρ) c).arrAt 2 cfg2.N := W3_arr m ρ c 2
    _ = nearest (V2 m ρ c main_arg0) (V2 m ρ c main_arg2) := R2.final (V2 m ρ) c
    _ = _ := by rw [entry2_a, entry2_b]

theorem res3 (c : Dev nD) : W4 m ρ c (Proc.devRef .tc main_v3)
    = nearest (m ((c : Thread nD τ).loc main_arg1)) (m ((c : Thread nD τ).loc main_arg3)) :=
  calc W4 m ρ c (Proc.devRef .tc main_v3)
    _ = (dat3 (V3 m ρ) c).arrAt 2 cfg3.N := W4_arr m ρ c 2
    _ = nearest (V3 m ρ c main_arg1) (V3 m ρ c main_arg3) := R3.final (V3 m ρ) c
    _ = _ := by rw [entry3_a, entry3_b]

/-! ## The host operations after the last launch -/

/-- The result buffer after the host operations: the four result arrays averaged and added. -/
theorem tail_eq (c : Dev nD) : W5 m ρ c (Proc.devRef .tc main_v14)
    = total reducesTo_S4x4096_S_d0_1 h_S_ (W4 m ρ c (Proc.devRef .tc main_v0)) (W4 m ρ c (Proc.devRef .tc main_v1))
        (W4 m ρ c (Proc.devRef .tc main_v2)) (W4 m ρ c (Proc.devRef .tc main_v3)) := by
  show StableHlo.after hostOps4 (W4 m ρ c) (Proc.devRef .tc main_v14) = _
  after_results
  rfl

/-- The kernel's result as a function of its inputs. -/
theorem value_eq (c : Dev nD) : W5 m ρ c (Proc.devRef .tc main_v14)
    = total reducesTo_S4x4096_S_d0_1 h_S_
        (nearest (m ((c : Thread nD τ).loc main_arg0)) (m ((c : Thread nD τ).loc main_arg1)))
        (nearest (m ((c : Thread nD τ).loc main_arg1)) (m ((c : Thread nD τ).loc main_arg0)))
        (nearest (m ((c : Thread nD τ).loc main_arg0)) (m ((c : Thread nD τ).loc main_arg2)))
        (nearest (m ((c : Thread nD τ).loc main_arg1)) (m ((c : Thread nD τ).loc main_arg3))) := by
  rw [tail_eq, res0, res1, res2, res3]

/-- The run, read: the result buffer at that function of the inputs, the inputs unchanged. -/
theorem run_value : θ_run defs (onTc (τ := τ) (main (F := Ideal))) ⟨m, fun _ => 0, ρ⟩ (fun r => ∀ c : Dev nD,
      r.2.mem ((c.tc : Thread nD τ).loc main_v14)
        = total reducesTo_S4x4096_S_d0_1 h_S_
            (nearest (m ((c : Thread nD τ).loc main_arg0)) (m ((c : Thread nD τ).loc main_arg1)))
            (nearest (m ((c : Thread nD τ).loc main_arg1)) (m ((c : Thread nD τ).loc main_arg0)))
            (nearest (m ((c : Thread nD τ).loc main_arg0)) (m ((c : Thread nD τ).loc main_arg2)))
            (nearest (m ((c : Thread nD τ).loc main_arg1)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (value_eq m ρ c), (h c).2⟩)
    (Cert.KernelIdeal.Rerun.run_result (F := Ideal) m ρ)

end Cert.KernelIdeal.Hand

end
-- ==== Proof.RefValue.lean ====
/-
  The reference, read. Its program forms, for each of three pairs of inputs, the [4, 4096, 4096] array of distances of
  every point of the first cloud to every point of the second (squared norms by sums over the coordinate axis, inner
  products by a batched contraction, |p|² + |q|² − 2·⟨p, q⟩ clamped at 0, the root) and reduces it with `min` from +∞:
  over the LAST axis, which gives each first point's least distance to the second cloud (`nearest`), and for the
  first pair also over the MIDDLE axis, which gives each SECOND point's least distance over the first cloud's points —
  by the symmetry of the distance that is `nearest` with the two clouds exchanged. The four reduced arrays are then
  averaged and added (`total`).
-/
import proofs.«175858_j66022237274638_1_alg».proof.Proof.Gen.ReferenceIdeal.Read
import proofs.«175858_j66022237274638_1_alg».proof.Proof.Spec
import Idealize.ShloMosaic.PureOps.Reduce
import Idealize.ShloMosaic.PureOps.Ideal.Laws
import Idealize.ShloMosaic.Lib.ValueIdx

noncomputable section

namespace Cert.RefValue

open Cert.ReferenceIdeal Cert.ReferenceIdeal.Gen Cert.ReferenceIdeal.Read Cert.Chamfer
open Idealize.ShloMosaic Idealize.ShloMosaic.ValueIdx

/-- One input array at the ideal values. -/
abbrev Arr := (⟨S4x4096x3, .f32⟩ : BufTy).Contents (Elt Ideal)

/-- A sum started from the word 0 is the sum. -/
theorem zero_word_add (s : EReal) : Ideal.ofBits .f32 0x00000000#32 + s = s := by
  rw [Ideal.ofBits_zero_f32, zero_add]

/-! ## The composed index maps of the first pair's stages, by coordinates -/

theorem idx_first (b : Fin 4) (i n : Fin 4096) (k : Fin 3) :
    idx_main_v1 (idx_main_v5 (idx_main_v7 (ix3 b i n))) k = ix3 b i k :=
  funext fun a => Fin.ext (by match a with | ⟨0, _⟩ => rfl | ⟨1, _⟩ => rfl | ⟨2, _⟩ => rfl)
theorem idx_second (b : Fin 4) (i n : Fin 4096) (k : Fin 3) :
    idx_main_v3 (idx_main_v6 (idx_main_v8 (ix3 b i n))) k = ix3 b n k :=
  funext fun a => Fin.ext (by match a with | ⟨0, _⟩ => rfl | ⟨1, _⟩ => rfl | ⟨2, _⟩ => rfl)
theorem idx_left (b : Fin 4) (i n : Fin 4096) (k : Fin 3) : lidx_main_v4 (ix3 b i n) k = ix3 b i k :=
  funext fun a => Fin.ext (by match a with | ⟨0, _⟩ => rfl | ⟨1, _⟩ => rfl | ⟨2, _⟩ => rfl)
theorem idx_right (b : Fin 4) (i n : Fin 4096) (k : Fin 3) : ridx_main_v4 (ix3 b i n) k = ix3 b n k :=
  funext fun a => Fin.ext (by match a with | ⟨0, _⟩ => rfl | ⟨1, _⟩ => rfl | ⟨2, _⟩ => rfl)

/-- The array of distances at (b, i, n): the distance of point i of the first cloud and point n of the second. -/
theorem dist_apply (x0 x1 : Arr) (b : Fin 4) (i n : Fin 4096) :
    val_main_v15 (F := Ideal) x0 x1 (ix3 b i n) = pdist (pt x0 b i) (pt x1 b n) := by
  rw [val_main_v15_apply, val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v1_apply]
  simp only [val_main_v0_apply, val_main_v2_apply, val_main_cst_apply, val_main_cst_0_apply, val_main_cst_1_apply,
    val_main_cst_2_apply, idx_first, idx_second, idx_left, idx_right, Ideal.hostUnary_sqrt_def, Ideal.maximumf_def,
    Ideal.subf_def, Ideal.addf_def, Ideal.mulf_def, Ideal.ofBits_def, zero_word_add]
  rfl

/-! ## The two `min` reductions -/

/-- A reduced index (b, i) with the last coordinate n put back. -/
theorem lift_last (h : Shape.Reduces S4x4096x4096 [2] S4x4096) (b : Fin 4) (i n : Fin 4096) :
    h.lift (ix2 b i) n = ix3 b i n :=
  funext fun a => Fin.ext (by match a with | ⟨0, _⟩ => rfl | ⟨1, _⟩ => rfl | ⟨2, _⟩ => rfl)
/-- A reduced index (b, n) with the middle coordinate m put back. -/
theorem lift_middle (h : Shape.Reduces S4x4096x4096 [1] S4x4096) (b : Fin 4) (n m : Fin 4096) :
    h.lift (ix2 b n) m = ix3 b m n :=
  funext fun a => Fin.ext (by match a with | ⟨0, _⟩ => rfl | ⟨1, _⟩ => rfl | ⟨2, _⟩ => rfl)

/-- The host's `min` reduction of a [4, 4096, 4096] array over its LAST axis from +∞, at (b, i): the fold of `min` over
    the 4096 entries of row (b, i). -/
theorem hostmin_last (w : S4x4096x4096.Idx → Ideal .f32) (c : S_.Idx → Ideal .f32) (hc : c (Shape.Idx.first h_S_) = inf)
    (b : Fin 4) (i : Fin 4096) :
    Host.reduce (α := Ideal .f32) (FloatOps.minimumf (F := Ideal) (φ := .f32)) w c reducesTo_S4x4096x4096_S4x4096_d2 h_S_ (ix2 b i)
      = (Finset.univ : Finset (Fin 4096)).fold min inf fun n => w (ix3 b i n) := by
  have hR : Shape.Reduces S4x4096x4096 [2] S4x4096 := by decide
  refine (Host.reduce_eq_fold_single (α := Ideal .f32) (FloatOps.minimumf (F := Ideal) (φ := .f32)) w c
    reducesTo_S4x4096x4096_S4x4096_d2 hR h_S_ (ix2 b i)).trans ?_
  rw [hc]
  refine congrArg (fun f => (Finset.univ : Finset (Fin 4096)).fold min inf f) (funext fun n => ?_)
  rw [Function.comp_apply, lift_last hR b i n]

/-- The same over the MIDDLE axis, at (b, n): the fold of `min` over the 4096 entries of column (b, ·, n). -/
theorem hostmin_middle (w : S4x4096x4096.Idx → Ideal .f32) (c : S_.Idx → Ideal .f32) (hc : c (Shape.Idx.first h_S_) = inf)
    (b : Fin 4) (n : Fin 4096) :
    Host.reduce (α := Ideal .f32) (FloatOps.minimumf (F := Ideal) (φ := .f32)) w c reducesTo_S4x4096x4096_S4x4096_d1 h_S_ (ix2 b n)
      = (Finset.univ : Finset (Fin 4096)).fold min inf fun m => w (ix3 b m n) := by
  have hR : Shape.Reduces S4x4096x4096 [1] S4x4096 := by decide
  refine (Host.reduce_eq_fold_single (α := Ideal .f32) (FloatOps.minimumf (F := Ideal) (φ := .f32)) w c
    reducesTo_S4x4096x4096_S4x4096_d1 hR h_S_ (ix2 b n)).trans ?_
  rw [hc]
  refine congrArg (fun f => (Finset.univ : Finset (Fin 4096)).fold min inf f) (funext fun m => ?_)
  rw [Function.comp_apply, lift_middle hR b n m]

/-- The minimum over the last axis: each first point's least distance to the second cloud. -/
theorem rowmin_eq (x0 x1 : Arr) : val_main_v16 (F := Ideal) x0 x1 = nearest x0 x1 := by
  funext j
  obtain ⟨b, i, rfl⟩ : ∃ (b : Fin 4) (i : Fin 4096), j = ix2 b i := ⟨j 0, j 1, eq_ix2 j⟩
  rw [nearest_ix2]
  unfold val_main_v16
  refine (hostmin_last (val_main_v15 (F := Ideal) x0 x1) (val_main_cst_3 (F := Ideal)) rfl b i).trans ?_
  unfold nearestOf
  exact congrArg (fun f => (Finset.univ : Finset (Fin 4096)).fold min inf f) (funext fun n => dist_apply x0 x1 b i n)

/-- The minimum over the middle axis: each SECOND point's least distance over the first cloud's points, which by the
    symmetry of the distance is its least distance to the first cloud. -/
theorem colmin_eq (x0 x1 : Arr) : val_main_v19 (F := Ideal) x0 x1 = nearest x1 x0 := by
  funext j
  obtain ⟨b, n, rfl⟩ : ∃ (b : Fin 4) (n : Fin 4096), j = ix2 b n := ⟨j 0, j 1, eq_ix2 j⟩
  rw [nearest_ix2]
  unfold val_main_v19
  refine (hostmin_middle (val_main_v15 (F := Ideal) x0 x1) (val_main_cst_6 (F := Ideal)) rfl b n).trans ?_
  refine Eq.trans ?_ (fold_first_eq_nearestOf (pt x1 b n) (pt x0 b))
  exact congrArg (fun f => (Finset.univ : Finset (Fin 4096)).fold min inf f) (funext fun m => dist_apply x0 x1 b m n)

/-! ## The second and third pairs run the first pair's operations on other inputs -/

theorem rowmin2_eq (x0 x2 : Arr) : val_main_v39 (F := Ideal) x0 x2 = nearest x0 x2 :=
  (show val_main_v39 (F := Ideal) x0 x2 = val_main_v16 (F := Ideal) x0 x2 from rfl).trans (rowmin_eq x0 x2)
theorem rowmin3_eq (x1 x3 : Arr) : val_main_v58 (F := Ideal) x1 x3 = nearest x1 x3 :=
  (show val_main_v58 (F := Ideal) x1 x3 = val_main_v16 (F := Ideal) x1 x3 from rfl).trans (rowmin_eq x1 x3)

/-! ## The result -/

/-- The program's last stages are the four means added. -/
theorem result_total (x0 x1 x2 x3 : Arr) :
    val_main_v62 (F := Ideal) x0 x1 x2 x3
      = total reducesTo_S4x4096_S_d0_1 h_S_ (val_main_v16 (F := Ideal) x0 x1) (val_main_v19 (F := Ideal) x0 x1)
          (val_main_v39 (F := Ideal) x0 x2) (val_main_v58 (F := Ideal) x1 x3) := rfl

/-- The reference's result as a function of its four inputs. -/
theorem result_eq (x0 x1 x2 x3 : Arr) :
    val_main_v62 (F := Ideal) x0 x1 x2 x3
      = total reducesTo_S4x4096_S_d0_1 h_S_ (nearest x0 x1) (nearest x1 x0) (nearest x0 x2) (nearest x1 x3) := by
  rw [result_total, rowmin_eq, colmin_eq, rowmin2_eq, rowmin3_eq]

end Cert.RefValue

end
-- ==== Proof.lean ====
/-
  The certificate of a Chamfer-style loss: a Pallas kernel against its jnp reference, over the extended reals.

  Both programs take four batches of point clouds and return one number,
      mean(nearest(x₀, x₁)) + mean(nearest(x₁, x₀)) + mean(nearest(x₀, x₂)) + mean(nearest(x₁, x₃)),
  where `nearest(A, B)` holds for every point of A its least distance to the cloud of B with the same batch index, the
  distance of two points taken as √(max(|p|² + |q|² − 2·⟨p, q⟩, 0)) (Proof/Spec.lean).

  The kernel launches one row-minimum body four times, each launch tiling its first operand's points in 32 blocks of
  128 and holding the whole second operand, and averages on the host; each launch's result array is `nearest` of its
  operands (Proof/Payload.lean for the body at an index, Proof/Region0.lean … Region3.lean for the blocks tiling the
  array, Proof/KernelValue.lean for the four launches and the host tail, over the run of Proof/KernelRun.lean).

  The reference forms each pair's whole [4, 4096, 4096] array of distances and reduces it with `min`; for the second
  summand it reduces the FIRST pair's array over its other axis, the least distance over the first point with the
  second held fixed. That is the one place where the programs differ by more than a tiling: the distance is symmetric
  (sums and products of extended reals commute), so that minimum is the least distance from the second point to the
  first cloud, which is what the kernel's second launch computes with the operands exchanged
  (Proof/RefValue.lean). Nothing is cancelled or distributed anywhere, so the precondition is not opened.

  The three frames are the generated frame certificates (the reference's is its generated run with the result
  dropped); the idealization rewrote no operation, so `preserves` is trivial.
-/
import proofs.«175858_j66022237274638_1_alg».proof.Defs
import proofs.«175858_j66022237274638_1_alg».proof.Proof.Gen.Kernel
import proofs.«175858_j66022237274638_1_alg».proof.Proof.Gen.Kernel.Skeleton
import proofs.«175858_j66022237274638_1_alg».proof.Proof.Gen.Kernel.Launch
import proofs.«175858_j66022237274638_1_alg».proof.Proof.Gen.Kernel.Points
import proofs.«175858_j66022237274638_1_alg».proof.Proof.Gen.Kernel.Frame
import proofs.«175858_j66022237274638_1_alg».proof.Proof.Gen.KernelIdeal
import proofs.«175858_j66022237274638_1_alg».proof.Proof.Gen.KernelIdeal.Skeleton
import proofs.«175858_j66022237274638_1_alg».proof.Proof.Gen.KernelIdeal.Launch
import proofs.«175858_j66022237274638_1_alg».proof.Proof.Gen.KernelIdeal.Points
import proofs.«175858_j66022237274638_1_alg».proof.Proof.Gen.KernelIdeal.Frame
import proofs.«175858_j66022237274638_1_alg».proof.Proof.Gen.ReferenceIdeal
import proofs.«175858_j66022237274638_1_alg».proof.Proof.Gen.ReferenceIdeal.Run
import proofs.«175858_j66022237274638_1_alg».proof.Proof.Gen.ReferenceIdeal.Read
import proofs.«175858_j66022237274638_1_alg».proof.Proof.Gen.Pre_finite_inputs
import proofs.«175858_j66022237274638_1_alg».proof.Proof.Spec
import proofs.«175858_j66022237274638_1_alg».proof.Proof.KernelValue
import proofs.«175858_j66022237274638_1_alg».proof.Proof.RefValue
import Idealize.ShloMosaic.Adequacy
import Idealize.ShloMosaic.Init

noncomputable section

namespace Cert.Proof

open Idealize.ShloMosaic Idealize.ShloMosaic.TcCoe Idealize.SL.Sem Cert.Chamfer

/-- The kernel's frame at the word level: the generated frame certificate. -/
theorem frame_k : Cert.frame_Kernel := fun m ρ _ => Cert.Kernel.Gen.frame m ρ

/-- The idealized kernel's frame: the generated frame certificate at the ideal values. -/
theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the four inputs both programs end with the result buffer at the four means of
    `nearest` added: the kernel's run read through its four launches, the reference's through its stages. The two
    terms differ only in which program's witnesses of the two shape facts `total` is cited with. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, Cert.RefValue.result_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
